-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x128x128 : Shape := ⟨4, ![16, 64, 128, 128]⟩
abbrev S_ : Shape := ⟨0, ![]⟩

class Facts : Prop where
  bcast_S_S16x64x128x128 : S_.BroadcastsInDim S16x64x128x128 (![] : Fin 0 → Fin S16x64x128x128.rank)
  reducesTo_S16x64x128x128_S_d0_1_2_3 : S16x64x128x128.ReducesTo [0, 1, 2, 3] S_
  h_S_ : 0 < S_.numel

variable [Facts]

def fn_part1 {F : FTy → Type} [FloatOps F] (main_v13 : IVec S_ 1) (main_v16 : IVec S16x64x128x128 1) : IVec S_ 1 :=
  let main_c_5 : IVec S_ 1 := constantI S_ 1 1#1
  let main_v17 : IVec S_ 1 := (fun x v => Host.reduce IntOp.andi x v reducesTo_S16x64x128x128_S_d0_1_2_3 h_S_) main_v16 main_c_5
  let main_v18 : IVec S_ 1 := andi main_v13 main_v17
  main_v18

def fn {F : FTy → Type} [FloatOps F] (main_arg0 : FVec F S16x64x128x128 .f32) (main_arg1 : FVec F S16x64x128x128 .f32) (main_arg2 : FVec F S16x64x128x128 .f32) (main_arg3 : FVec F S16x64x128x128 .f32) : IVec S_ 1 :=
  let main_v0 : FVec F S16x64x128x128 .f32 := Host.absf main_arg0
  let main_cst : FVec F S_ .f32 := constant S_ .f32 0x7F800000#32
  let main_v1 : FVec F S16x64x128x128 .f32 := broadcastInDim S16x64x128x128 ![] bcast_S_S16x64x128x128 main_cst
  let main_v2 : IVec S16x64x128x128 1 := cmpf .olt main_v0 main_v1
  let main_c : IVec S_ 1 := constantI S_ 1 1#1
  let main_v3 : IVec S_ 1 := (fun x v => Host.reduce IntOp.andi x v reducesTo_S16x64x128x128_S_d0_1_2_3 h_S_) main_v2 main_c
  let main_v4 : FVec F S16x64x128x128 .f32 := Host.absf main_arg1
  let main_cst_0 : FVec F S_ .f32 := constant S_ .f32 0x7F800000#32
  let main_v5 : FVec F S16x64x128x128 .f32 := broadcastInDim S16x64x128x128 ![] bcast_S_S16x64x128x128 main_cst_0
  let main_v6 : IVec S16x64x128x128 1 := cmpf .olt main_v4 main_v5
  let main_c_1 : IVec S_ 1 := constantI S_ 1 1#1
  let main_v7 : IVec S_ 1 := (fun x v => Host.reduce IntOp.andi x v reducesTo_S16x64x128x128_S_d0_1_2_3 h_S_) main_v6 main_c_1
  let main_v8 : IVec S_ 1 := andi main_v3 main_v7
  let main_v9 : FVec F S16x64x128x128 .f32 := Host.absf main_arg2
  let main_cst_2 : FVec F S_ .f32 := constant S_ .f32 0x7F800000#32
  let main_v10 : FVec F S16x64x128x128 .f32 := broadcastInDim S16x64x128x128 ![] bcast_S_S16x64x128x128 main_cst_2
  let main_v11 : IVec S16x64x128x128 1 := cmpf .olt main_v9 main_v10
  let main_c_3 : IVec S_ 1 := constantI S_ 1 1#1
  let main_v12 : IVec S_ 1 := (fun x v => Host.reduce IntOp.andi x v reducesTo_S16x64x128x128_S_d0_1_2_3 h_S_) main_v11 main_c_3
  let main_v13 : IVec S_ 1 := andi main_v8 main_v12
  let main_v14 : FVec F S16x64x128x128 .f32 := Host.absf main_arg3
  let main_cst_4 : FVec F S_ .f32 := constant S_ .f32 0x7F800000#32
  let main_v15 : FVec F S16x64x128x128 .f32 := broadcastInDim S16x64x128x128 ![] bcast_S_S16x64x128x128 main_cst_4
  let main_v16 : IVec S16x64x128x128 1 := cmpf .olt main_v14 main_v15
  fn_part1 (F := F) main_v13 main_v16
-- ==== Kernel.lean ====
abbrev S16x64x128x128 : Shape := ⟨4, ![16, 64, 128, 128]⟩
abbrev S1x16x128x128 : Shape := ⟨4, ![1, 16, 128, 128]⟩
abbrev S16x64x128x128x1 : Shape := ⟨5, ![16, 64, 128, 128, 1]⟩
abbrev S16x64x128x128x2 : Shape := ⟨5, ![16, 64, 128, 128, 2]⟩
abbrev S16x64x128x128x1x2 : Shape := ⟨6, ![16, 64, 128, 128, 1, 2]⟩
abbrev S16x64x128x128x2x2 : Shape := ⟨6, ![16, 64, 128, 128, 2, 2]⟩
abbrev S16x64x128x2x128x2 : Shape := ⟨6, ![16, 64, 128, 2, 128, 2]⟩
abbrev S16x64x256x256 : Shape := ⟨4, ![16, 64, 256, 256]⟩

abbrev nBuf : Space → Nat
  | .hbm => 19
  | .vmem => 16
  | .smem => 0
  | _ => 0

abbrev bufTy : (tb : Table) → Fin (tcTables nBuf tb) → BufTy
  | .hbm, ⟨0, _⟩ => ⟨S16x64x128x128, .f32⟩
  | .hbm, ⟨1, _⟩ => ⟨S16x64x128x128, .f32⟩
  | .hbm, ⟨2, _⟩ => ⟨S16x64x128x128, .f32⟩
  | .hbm, ⟨3, _⟩ => ⟨S16x64x128x128, .f32⟩
  | .hbm, ⟨4, _⟩ => ⟨S16x64x128x128, .f32⟩
  | .hbm, ⟨5, _⟩ => ⟨S16x64x128x128, .f32⟩
  | .hbm, ⟨6, _⟩ => ⟨S16x64x128x128, .f32⟩
  | .hbm, ⟨7, _⟩ => ⟨S16x64x128x128, .f32⟩
  | .hbm, ⟨8, _⟩ => ⟨S16x64x128x128x1, .f32⟩
  | .hbm, ⟨9, _⟩ => ⟨S16x64x128x128x1, .f32⟩
  | .hbm, ⟨10, _⟩ => ⟨S16x64x128x128x2, .f32⟩
  | .hbm, ⟨11, _⟩ => ⟨S16x64x128x128x1, .f32⟩
  | .hbm, ⟨12, _⟩ => ⟨S16x64x128x128x1, .f32⟩
  | .hbm, ⟨13, _⟩ => ⟨S16x64x128x128x2, .f32⟩
  | .hbm, ⟨14, _⟩ => ⟨S16x64x128x128x1x2, .f32⟩
  | .hbm, ⟨15, _⟩ => ⟨S16x64x128x128x1x2, .f32⟩
  | .hbm, ⟨16, _⟩ => ⟨S16x64x128x128x2x2, .f32⟩
  | .hbm, ⟨17, _⟩ => ⟨S16x64x128x2x128x2, .f32⟩
  | .hbm, ⟨18, _⟩ => ⟨S16x64x256x256, .f32⟩
  | .local _ .vmem, ⟨0, _⟩ => ⟨S1x16x128x128, .f32⟩
  | .local _ .vmem, ⟨1, _⟩ => ⟨S1x16x128x128, .f32⟩
  | .local _ .vmem, ⟨2, _⟩ => ⟨S1x16x128x128, .f32⟩
  | .local _ .vmem, ⟨3, _⟩ => ⟨S1x16x128x128, .f32⟩
  | .local _ .vmem, ⟨4, _⟩ => ⟨S1x16x128x128, .f32⟩
  | .local _ .vmem, ⟨5, _⟩ => ⟨S1x16x128x128, .f32⟩
  | .local _ .vmem, ⟨6, _⟩ => ⟨S1x16x128x128, .f32⟩
  | .local _ .vmem, ⟨7, _⟩ => ⟨S1x16x128x128, .f32⟩
  | .local _ .vmem, ⟨8, _⟩ => ⟨S1x16x128x128, .f32⟩
  | .local _ .vmem, ⟨9, _⟩ => ⟨S1x16x128x128, .f32⟩
  | .local _ .vmem, ⟨10, _⟩ => ⟨S1x16x128x128, .f32⟩
  | .local _ .vmem, ⟨11, _⟩ => ⟨S1x16x128x128, .f32⟩
  | .local _ .vmem, ⟨12, _⟩ => ⟨S1x16x128x128, .f32⟩
  | .local _ .vmem, ⟨13, _⟩ => ⟨S1x16x128x128, .f32⟩
  | .local _ .vmem, ⟨14, _⟩ => ⟨S1x16x128x128, .f32⟩
  | .local _ .vmem, ⟨15, _⟩ => ⟨S1x16x128x128, .f32⟩
  | _, _ => ⟨S16x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  inb_S1x16x128x128_S1x16x128x128_0_0_0_0 : ∀ a, (![0, 0, 0, 0] : Fin 4 → Nat) a + S1x16x128x128.size a ≤ S1x16x128x128.size a
  h_S1x16x128x128 : 0 < S1x16x128x128.numel
  bcast_S16x64x128x128_S16x64x128x128x1_0_1_2_3 : S16x64x128x128.BroadcastsInDim S16x64x128x128x1 (![0, 1, 2, 3] : Fin 4 → Fin S16x64x128x128x1.rank)
  concatenates_S16x64x128x128x1_S16x64x128x128x1_S16x64x128x128x2_d4 : Shape.Concatenates [S16x64x128x128x1, S16x64x128x128x1] S16x64x128x128x2 4
  bcast_S16x64x128x128x2_S16x64x128x128x1x2_0_1_2_3_5 : S16x64x128x128x2.BroadcastsInDim S16x64x128x128x1x2 (![0, 1, 2, 3, 5] : Fin 5 → Fin S16x64x128x128x1x2.rank)
  concatenates_S16x64x128x128x1x2_S16x64x128x128x1x2_S16x64x128x128x2x2_d4 : Shape.Concatenates [S16x64x128x128x1x2, S16x64x128x128x1x2] S16x64x128x128x2x2 4
  transposes_S16x64x128x128x2x2_S16x64x128x2x128x2_0_1_2_4_3_5 : S16x64x128x128x2x2.Transposes [0, 1, 2, 4, 3, 5] S16x64x128x2x128x2
  shapeCasts_S16x64x128x2x128x2_S16x64x256x256 : S16x64x128x2x128x2.ShapeCasts S16x64x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128x128.size a ≤ S16x64x128x128.size a
  hwx0_0 : ∀ i : grid0.Coords, EltTy.bits .f32 = 32 ∨ (Rect.block (s := S16x64x128x128) S1x16x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x128x128.size a ≤ S16x64x128x128.size a
  hwx0_1 : ∀ i : grid0.Coords, EltTy.bits .f32 = 32 ∨ (Rect.block (s := S16x64x128x128) S1x16x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x128x128.size a ≤ S16x64x128x128.size a
  hwx0_2 : ∀ i : grid0.Coords, EltTy.bits .f32 = 32 ∨ (Rect.block (s := S16x64x128x128) S1x16x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x128x128.size a ≤ S16x64x128x128.size a
  hwx0_3 : ∀ i : grid0.Coords, EltTy.bits .f32 = 32 ∨ (Rect.block (s := S16x64x128x128) S1x16x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x128x128.size a ≤ S16x64x128x128.size a
  hwx0_4 : ∀ i : grid0.Coords, EltTy.bits .f32 = 32 ∨ (Rect.block (s := S16x64x128x128) S1x16x128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x128x128.size a ≤ S16x64x128x128.size a
  hwx0_5 : ∀ i : grid0.Coords, EltTy.bits .f32 = 32 ∨ (Rect.block (s := S16x64x128x128) S1x16x128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x128x128.size a ≤ S16x64x128x128.size a
  hwx0_6 : ∀ i : grid0.Coords, EltTy.bits .f32 = 32 ∨ (Rect.block (s := S16x64x128x128) S1x16x128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x128x128.size a ≤ S16x64x128x128.size a
  hwx0_7 : ∀ i : grid0.Coords, EltTy.bits .f32 = 32 ∨ (Rect.block (s := S16x64x128x128) S1x16x128x128.size (cc0_transform_7 i) (hinb0_7 i)).WholeWords (EltTy.packing .f32)

variable [Facts₀]

abbrev win0_0 : Pipeline.Window sig grid0 :=
  Pipeline.Window.ofSpec (Memref.whole main_arg0) S1x16x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x16x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x16x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x16x128x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x16x128x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1x16x128x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_3) S1x16x128x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x64x128x128 : Shape := ⟨4, ![16, 64, 128, 128]⟩
abbrev S_ : Shape := ⟨0, ![]⟩
abbrev S16x64x128x128x1 : Shape := ⟨5, ![16, 64, 128, 128, 1]⟩
abbrev S16x64x128x128x2 : Shape := ⟨5, ![16, 64, 128, 128, 2]⟩
abbrev S16x64x128x128x1x2 : Shape := ⟨6, ![16, 64, 128, 128, 1, 2]⟩
abbrev S16x64x128x128x2x2 : Shape := ⟨6, ![16, 64, 128, 128, 2, 2]⟩
abbrev S16x64x128x2x128x2 : Shape := ⟨6, ![16, 64, 128, 2, 128, 2]⟩
abbrev S16x64x256x256 : Shape := ⟨4, ![16, 64, 256, 256]⟩

abbrev nBuf : Space → Nat
  | .hbm => 35
  | .vmem => 0
  | .smem => 0
  | _ => 0

abbrev bufTy : (tb : Table) → Fin (tcTables nBuf tb) → BufTy
  | .hbm, ⟨0, _⟩ => ⟨S16x64x128x128, .f32⟩
  | .hbm, ⟨1, _⟩ => ⟨S16x64x128x128, .f32⟩
  | .hbm, ⟨2, _⟩ => ⟨S16x64x128x128, .f32⟩
  | .hbm, ⟨3, _⟩ => ⟨S16x64x128x128, .f32⟩
  | .hbm, ⟨4, _⟩ => ⟨S16x64x128x128, .f32⟩
  | .hbm, ⟨5, _⟩ => ⟨S16x64x128x128, .f32⟩
  | .hbm, ⟨6, _⟩ => ⟨S16x64x128x128, .f32⟩
  | .hbm, ⟨7, _⟩ => ⟨S16x64x128x128, .f32⟩
  | .hbm, ⟨8, _⟩ => ⟨S16x64x128x128, .f32⟩
  | .hbm, ⟨9, _⟩ => ⟨S_, .f32⟩
  | .hbm, ⟨10, _⟩ => ⟨S16x64x128x128, .f32⟩
  | .hbm, ⟨11, _⟩ => ⟨S16x64x128x128, .f32⟩
  | .hbm, ⟨12, _⟩ => ⟨S16x64x128x128, .f32⟩
  | .hbm, ⟨13, _⟩ => ⟨S_, .f32⟩
  | .hbm, ⟨14, _⟩ => ⟨S16x64x128x128, .f32⟩
  | .hbm, ⟨15, _⟩ => ⟨S16x64x128x128, .f32⟩
  | .hbm, ⟨16, _⟩ => ⟨S16x64x128x128, .f32⟩
  | .hbm, ⟨17, _⟩ => ⟨S_, .f32⟩
  | .hbm, ⟨18, _⟩ => ⟨S16x64x128x128, .f32⟩
  | .hbm, ⟨19, _⟩ => ⟨S16x64x128x128, .f32⟩
  | .hbm, ⟨20, _⟩ => ⟨S16x64x128x128, .f32⟩
  | .hbm, ⟨21, _⟩ => ⟨S_, .f32⟩
  | .hbm, ⟨22, _⟩ => ⟨S16x64x128x128, .f32⟩
  | .hbm, ⟨23, _⟩ => ⟨S16x64x128x128, .f32⟩
  | .hbm, ⟨24, _⟩ => ⟨S16x64x128x128x1, .f32⟩
  | .hbm, ⟨25, _⟩ => ⟨S16x64x128x128x1, .f32⟩
  | .hbm, ⟨26, _⟩ => ⟨S16x64x128x128x2, .f32⟩
  | .hbm, ⟨27, _⟩ => ⟨S16x64x128x128x1, .f32⟩
  | .hbm, ⟨28, _⟩ => ⟨S16x64x128x128x1, .f32⟩
  | .hbm, ⟨29, _⟩ => ⟨S16x64x128x128x2, .f32⟩
  | .hbm, ⟨30, _⟩ => ⟨S16x64x128x128x1x2, .f32⟩
  | .hbm, ⟨31, _⟩ => ⟨S16x64x128x128x1x2, .f32⟩
  | .hbm, ⟨32, _⟩ => ⟨S16x64x128x128x2x2, .f32⟩
  | .hbm, ⟨33, _⟩ => ⟨S16x64x128x2x128x2, .f32⟩
  | .hbm, ⟨34, _⟩ => ⟨S16x64x256x256, .f32⟩
  | _, _ => ⟨S16x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]

class Facts₀ : Prop where
  bcast_S_S16x64x128x128 : S_.BroadcastsInDim S16x64x128x128 (![] : Fin 0 → Fin S16x64x128x128.rank)
  bcast_S16x64x128x128_S16x64x128x128x1_0_1_2_3 : S16x64x128x128.BroadcastsInDim S16x64x128x128x1 (![0, 1, 2, 3] : Fin 4 → Fin S16x64x128x128x1.rank)
  concatenates_S16x64x128x128x1_S16x64x128x128x1_S16x64x128x128x2_d4 : Shape.Concatenates [S16x64x128x128x1, S16x64x128x128x1] S16x64x128x128x2 4
  bcast_S16x64x128x128x2_S16x64x128x128x1x2_0_1_2_3_5 : S16x64x128x128x2.BroadcastsInDim S16x64x128x128x1x2 (![0, 1, 2, 3, 5] : Fin 5 → Fin S16x64x128x128x1x2.rank)
  concatenates_S16x64x128x128x1x2_S16x64x128x128x1x2_S16x64x128x128x2x2_d4 : Shape.Concatenates [S16x64x128x128x1x2, S16x64x128x128x1x2] S16x64x128x128x2x2 4
  transposes_S16x64x128x128x2x2_S16x64x128x2x128x2_0_1_2_4_3_5 : S16x64x128x128x2x2.Transposes [0, 1, 2, 4, 3, 5] S16x64x128x2x128x2
  shapeCasts_S16x64x128x2x128x2_S16x64x256x256 : S16x64x128x2x128x2.ShapeCasts S16x64x256x256

variable [Facts₀]

class Facts : Prop extends Facts₀ where

variable [Facts]
-- ==== Proof.HaarBlocks.lean ====
/-
  The inverse Haar step: from four coefficient arrays LL, LH, HL, HH of one shape, the four corner arrays
    top-left     = 1/4 · ((LL + LH) + (HL + HH))      top-right    = 1/4 · ((LL + LH) − (HL + HH))
    bottom-left  = 1/4 · ((LL − LH) + (HL − HH))      bottom-right = 1/4 · ((LL − LH) − (HL − HH))
  entry by entry. This file states the four corners for arrays of ANY shape and shows that a grid point's body,
  which applies them to one [1,16,128,128] block of each input, writes back the corresponding block of the corners
  of the whole [16,64,128,128] arrays: every window, input or output, sits at block (t / 4, t % 4, 0, 0) at point t,
  so the entry j of a block is the entry (t / 4, 16·(t % 4) + j₁, j₂, j₃) of its array whichever window it is.
  The sixty-four blocks tile the array, so after the run each output array is a corner of the whole inputs.
-/
import proofs.«105108_j83356725281342_1_alg».proof.Proof.Gen.KernelIdeal.Frame
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Haar

open Cert.KernelIdeal Cert.KernelIdeal.Gen

variable {F : FTy → Type} [FloatOps F]

/-! ## The four corners, over any shape -/

/-- 1/4 · ((a₀ + a₁) + (a₂ + a₃)), entry by entry. -/
def topLeft (s : Shape) (a0 a1 a2 a3 : FVec F s .f32) : FVec F s .f32 :=
  mulf (broadcast s (Scalar.ofBits .f32 0x3E800000#32)) (addf (addf a0 a1) (addf a2 a3))
/-- 1/4 · ((a₀ + a₁) − (a₂ + a₃)), entry by entry. -/
def topRight (s : Shape) (a0 a1 a2 a3 : FVec F s .f32) : FVec F s .f32 :=
  mulf (broadcast s (Scalar.ofBits .f32 0x3E800000#32)) (subf (addf a0 a1) (addf a2 a3))
/-- 1/4 · ((a₀ − a₁) + (a₂ − a₃)), entry by entry. -/
def bottomLeft (s : Shape) (a0 a1 a2 a3 : FVec F s .f32) : FVec F s .f32 :=
  mulf (broadcast s (Scalar.ofBits .f32 0x3E800000#32)) (addf (subf a0 a1) (subf a2 a3))
/-- 1/4 · ((a₀ − a₁) − (a₂ − a₃)), entry by entry. -/
def bottomRight (s : Shape) (a0 a1 a2 a3 : FVec F s .f32) : FVec F s .f32 :=
  mulf (broadcast s (Scalar.ofBits .f32 0x3E800000#32)) (subf (subf a0 a1) (subf a2 a3))

/-- The body's four stored values are the four corners of its loaded blocks. -/
theorem pay5_eq (x0 x1 x2 x3 : Vec F S1x16x128x128 .f32) : k0_pay5 x0 x1 x2 x3 = topLeft S1x16x128x128 x0 x1 x2 x3 := rfl
theorem pay6_eq (x0 x1 x2 x3 : Vec F S1x16x128x128 .f32) : k0_pay6 x0 x1 x2 x3 = topRight S1x16x128x128 x0 x1 x2 x3 := rfl
theorem pay7_eq (x0 x1 x2 x3 : Vec F S1x16x128x128 .f32) : k0_pay7 x0 x1 x2 x3 = bottomLeft S1x16x128x128 x0 x1 x2 x3 := rfl
theorem pay8_eq (x0 x1 x2 x3 : Vec F S1x16x128x128 .f32) : k0_pay8 x0 x1 x2 x3 = bottomRight S1x16x128x128 x0 x1 x2 x3 := rfl

variable (m : (ℓ : Loc nD τ sig) → Buf (Elt F) ℓ) (ρ : Dev nD → PrngReg)

theorem zero_offsets : (![0, 0, 0, 0] : Fin 4 → Nat) = fun _ => 0 := funext fun a => by fin_cases a <;> rfl

/-! ## Where the blocks sit -/

/-- At point t every window's block index is (t / 4, t % 4, 0, 0). -/
theorem index_at : ∀ t : Fin cfg0.N,
    (win0_0.index t (0 : Fin 4) = t.val / 4 ∧ win0_0.index t (1 : Fin 4) = t.val % 4 ∧ win0_0.index t (2 : Fin 4) = 0 ∧ win0_0.index t (3 : Fin 4) = 0)
    ∧ (win0_1.index t (0 : Fin 4) = t.val / 4 ∧ win0_1.index t (1 : Fin 4) = t.val % 4 ∧ win0_1.index t (2 : Fin 4) = 0 ∧ win0_1.index t (3 : Fin 4) = 0)
    ∧ (win0_2.index t (0 : Fin 4) = t.val / 4 ∧ win0_2.index t (1 : Fin 4) = t.val % 4 ∧ win0_2.index t (2 : Fin 4) = 0 ∧ win0_2.index t (3 : Fin 4) = 0)
    ∧ (win0_3.index t (0 : Fin 4) = t.val / 4 ∧ win0_3.index t (1 : Fin 4) = t.val % 4 ∧ win0_3.index t (2 : Fin 4) = 0 ∧ win0_3.index t (3 : Fin 4) = 0)
    ∧ (win0_4.index t (0 : Fin 4) = t.val / 4 ∧ win0_4.index t (1 : Fin 4) = t.val % 4 ∧ win0_4.index t (2 : Fin 4) = 0 ∧ win0_4.index t (3 : Fin 4) = 0)
    ∧ (win0_5.index t (0 : Fin 4) = t.val / 4 ∧ win0_5.index t (1 : Fin 4) = t.val % 4 ∧ win0_5.index t (2 : Fin 4) = 0 ∧ win0_5.index t (3 : Fin 4) = 0)
    ∧ (win0_6.index t (0 : Fin 4) = t.val / 4 ∧ win0_6.index t (1 : Fin 4) = t.val % 4 ∧ win0_6.index t (2 : Fin 4) = 0 ∧ win0_6.index t (3 : Fin 4) = 0)
    ∧ (win0_7.index t (0 : Fin 4) = t.val / 4 ∧ win0_7.index t (1 : Fin 4) = t.val % 4 ∧ win0_7.index t (2 : Fin 4) = 0 ∧ win0_7.index t (3 : Fin 4) = 0) :=
  (by decide +kernel : ∀ t : Fin grid0.N, _)

/-- The entry of the [16,64,128,128] arrays that entry j of a point's block is. -/
def entryOf (t : Fin cfg0.N) (j : S1x16x128x128.Idx) : S16x64x128x128.Idx := ((cfg0.win 0).blk t).view.emb j

theorem emb1 (t : Fin cfg0.N) (j : S1x16x128x128.Idx) : ((cfg0.win 1).blk t).view.emb j = entryOf t j := by
  obtain ⟨⟨a0, a1, a2, a3⟩, ⟨b0, b1, b2, b3⟩, -⟩ := index_at t
  funext a; apply Fin.ext
  match a with
  | ⟨0, _⟩ => show win0_1.index t (0 : Fin 4) * 1 + 1 * (j 0).val = win0_0.index t (0 : Fin 4) * 1 + 1 * (j 0).val; omega
  | ⟨1, _⟩ => show win0_1.index t (1 : Fin 4) * 16 + 1 * (j 1).val = win0_0.index t (1 : Fin 4) * 16 + 1 * (j 1).val; omega
  | ⟨2, _⟩ => show win0_1.index t (2 : Fin 4) * 128 + 1 * (j 2).val = win0_0.index t (2 : Fin 4) * 128 + 1 * (j 2).val; omega
  | ⟨3, _⟩ => show win0_1.index t (3 : Fin 4) * 128 + 1 * (j 3).val = win0_0.index t (3 : Fin 4) * 128 + 1 * (j 3).val; omega

theorem emb2 (t : Fin cfg0.N) (j : S1x16x128x128.Idx) : ((cfg0.win 2).blk t).view.emb j = entryOf t j := by
  obtain ⟨⟨a0, a1, a2, a3⟩, -, ⟨b0, b1, b2, b3⟩, -⟩ := index_at t
  funext a; apply Fin.ext
  match a with
  | ⟨0, _⟩ => show win0_2.index t (0 : Fin 4) * 1 + 1 * (j 0).val = win0_0.index t (0 : Fin 4) * 1 + 1 * (j 0).val; omega
  | ⟨1, _⟩ => show win0_2.index t (1 : Fin 4) * 16 + 1 * (j 1).val = win0_0.index t (1 : Fin 4) * 16 + 1 * (j 1).val; omega
  | ⟨2, _⟩ => show win0_2.index t (2 : Fin 4) * 128 + 1 * (j 2).val = win0_0.index t (2 : Fin 4) * 128 + 1 * (j 2).val; omega
  | ⟨3, _⟩ => show win0_2.index t (3 : Fin 4) * 128 + 1 * (j 3).val = win0_0.index t (3 : Fin 4) * 128 + 1 * (j 3).val; omega

theorem emb3 (t : Fin cfg0.N) (j : S1x16x128x128.Idx) : ((cfg0.win 3).blk t).view.emb j = entryOf t j := by
  obtain ⟨⟨a0, a1, a2, a3⟩, -, -, ⟨b0, b1, b2, b3⟩, -⟩ := index_at t
  funext a; apply Fin.ext
  match a with
  | ⟨0, _⟩ => show win0_3.index t (0 : Fin 4) * 1 + 1 * (j 0).val = win0_0.index t (0 : Fin 4) * 1 + 1 * (j 0).val; omega
  | ⟨1, _⟩ => show win0_3.index t (1 : Fin 4) * 16 + 1 * (j 1).val = win0_0.index t (1 : Fin 4) * 16 + 1 * (j 1).val; omega
  | ⟨2, _⟩ => show win0_3.index t (2 : Fin 4) * 128 + 1 * (j 2).val = win0_0.index t (2 : Fin 4) * 128 + 1 * (j 2).val; omega
  | ⟨3, _⟩ => show win0_3.index t (3 : Fin 4) * 128 + 1 * (j 3).val = win0_0.index t (3 : Fin 4) * 128 + 1 * (j 3).val; omega

theorem emb4 (t : Fin cfg0.N) (j : S1x16x128x128.Idx) : ((cfg0.win 4).blk t).view.emb j = entryOf t j := by
  obtain ⟨⟨a0, a1, a2, a3⟩, -, -, -, ⟨b0, b1, b2, b3⟩, -⟩ := index_at t
  funext a; apply Fin.ext
  match a with
  | ⟨0, _⟩ => show win0_4.index t (0 : Fin 4) * 1 + 1 * (j 0).val = win0_0.index t (0 : Fin 4) * 1 + 1 * (j 0).val; omega
  | ⟨1, _⟩ => show win0_4.index t (1 : Fin 4) * 16 + 1 * (j 1).val = win0_0.index t (1 : Fin 4) * 16 + 1 * (j 1).val; omega
  | ⟨2, _⟩ => show win0_4.index t (2 : Fin 4) * 128 + 1 * (j 2).val = win0_0.index t (2 : Fin 4) * 128 + 1 * (j 2).val; omega
  | ⟨3, _⟩ => show win0_4.index t (3 : Fin 4) * 128 + 1 * (j 3).val = win0_0.index t (3 : Fin 4) * 128 + 1 * (j 3).val; omega

theorem emb5 (t : Fin cfg0.N) (j : S1x16x128x128.Idx) : ((cfg0.win 5).blk t).view.emb j = entryOf t j := by
  obtain ⟨⟨a0, a1, a2, a3⟩, -, -, -, -, ⟨b0, b1, b2, b3⟩, -⟩ := index_at t
  funext a; apply Fin.ext
  match a with
  | ⟨0, _⟩ => show win0_5.index t (0 : Fin 4) * 1 + 1 * (j 0).val = win0_0.index t (0 : Fin 4) * 1 + 1 * (j 0).val; omega
  | ⟨1, _⟩ => show win0_5.index t (1 : Fin 4) * 16 + 1 * (j 1).val = win0_0.index t (1 : Fin 4) * 16 + 1 * (j 1).val; omega
  | ⟨2, _⟩ => show win0_5.index t (2 : Fin 4) * 128 + 1 * (j 2).val = win0_0.index t (2 : Fin 4) * 128 + 1 * (j 2).val; omega
  | ⟨3, _⟩ => show win0_5.index t (3 : Fin 4) * 128 + 1 * (j 3).val = win0_0.index t (3 : Fin 4) * 128 + 1 * (j 3).val; omega

theorem emb6 (t : Fin cfg0.N) (j : S1x16x128x128.Idx) : ((cfg0.win 6).blk t).view.emb j = entryOf t j := by
  obtain ⟨⟨a0, a1, a2, a3⟩, -, -, -, -, -, ⟨b0, b1, b2, b3⟩, -⟩ := index_at t
  funext a; apply Fin.ext
  match a with
  | ⟨0, _⟩ => show win0_6.index t (0 : Fin 4) * 1 + 1 * (j 0).val = win0_0.index t (0 : Fin 4) * 1 + 1 * (j 0).val; omega
  | ⟨1, _⟩ => show win0_6.index t (1 : Fin 4) * 16 + 1 * (j 1).val = win0_0.index t (1 : Fin 4) * 16 + 1 * (j 1).val; omega
  | ⟨2, _⟩ => show win0_6.index t (2 : Fin 4) * 128 + 1 * (j 2).val = win0_0.index t (2 : Fin 4) * 128 + 1 * (j 2).val; omega
  | ⟨3, _⟩ => show win0_6.index t (3 : Fin 4) * 128 + 1 * (j 3).val = win0_0.index t (3 : Fin 4) * 128 + 1 * (j 3).val; omega

theorem emb7 (t : Fin cfg0.N) (j : S1x16x128x128.Idx) : ((cfg0.win 7).blk t).view.emb j = entryOf t j := by
  obtain ⟨⟨a0, a1, a2, a3⟩, -, -, -, -, -, -, b0, b1, b2, b3⟩ := index_at t
  funext a; apply Fin.ext
  match a with
  | ⟨0, _⟩ => show win0_7.index t (0 : Fin 4) * 1 + 1 * (j 0).val = win0_0.index t (0 : Fin 4) * 1 + 1 * (j 0).val; omega
  | ⟨1, _⟩ => show win0_7.index t (1 : Fin 4) * 16 + 1 * (j 1).val = win0_0.index t (1 : Fin 4) * 16 + 1 * (j 1).val; omega
  | ⟨2, _⟩ => show win0_7.index t (2 : Fin 4) * 128 + 1 * (j 2).val = win0_0.index t (2 : Fin 4) * 128 + 1 * (j 2).val; omega
  | ⟨3, _⟩ => show win0_7.index t (3 : Fin 4) * 128 + 1 * (j 3).val = win0_0.index t (3 : Fin 4) * 128 + 1 * (j 3).val; omega

/-! ## An input block's entry is its array's entry -/

theorem iblk0_apply (c : Dev nD) (t : Fin cfg0.N) (j : S1x16x128x128.Idx) :
    (iblk m c 0 t : Vec F S1x16x128x128 .f32) j = (V m c main_arg0 : S16x64x128x128.Idx → Elt F .f32) (entryOf t j) := by
  unfold iblk; rw [View.read_apply]; rfl
theorem iblk1_apply (c : Dev nD) (t : Fin cfg0.N) (j : S1x16x128x128.Idx) :
    (iblk m c 1 t : Vec F S1x16x128x128 .f32) j = (V m c main_arg1 : S16x64x128x128.Idx → Elt F .f32) (entryOf t j) := by
  unfold iblk; rw [View.read_apply, emb1]; rfl
theorem iblk2_apply (c : Dev nD) (t : Fin cfg0.N) (j : S1x16x128x128.Idx) :
    (iblk m c 2 t : Vec F S1x16x128x128 .f32) j = (V m c main_arg2 : S16x64x128x128.Idx → Elt F .f32) (entryOf t j) := by
  unfold iblk; rw [View.read_apply, emb2]; rfl
theorem iblk3_apply (c : Dev nD) (t : Fin cfg0.N) (j : S1x16x128x128.Idx) :
    (iblk m c 3 t : Vec F S1x16x128x128 .f32) j = (V m c main_arg3 : S16x64x128x128.Idx → Elt F .f32) (entryOf t j) := by
  unfold iblk; rw [View.read_apply, emb3]; rfl

/-! ## A corner of blocks at an entry is the corner of the arrays at the array's entry -/

theorem topLeft_at {s s' : Shape} (x0 x1 x2 x3 : FVec F s .f32) (a0 a1 a2 a3 : FVec F s' .f32) (j : s.Idx) (i : s'.Idx)
    (h0 : x0 j = a0 i) (h1 : x1 j = a1 i) (h2 : x2 j = a2 i) (h3 : x3 j = a3 i) :
    topLeft s x0 x1 x2 x3 j = topLeft s' a0 a1 a2 a3 i := by
  simp only [topLeft, mulf, addf, broadcast, h0, h1, h2, h3]
theorem topRight_at {s s' : Shape} (x0 x1 x2 x3 : FVec F s .f32) (a0 a1 a2 a3 : FVec F s' .f32) (j : s.Idx) (i : s'.Idx)
    (h0 : x0 j = a0 i) (h1 : x1 j = a1 i) (h2 : x2 j = a2 i) (h3 : x3 j = a3 i) :
    topRight s x0 x1 x2 x3 j = topRight s' a0 a1 a2 a3 i := by
  simp only [topRight, mulf, addf, subf, broadcast, h0, h1, h2, h3]
theorem bottomLeft_at {s s' : Shape} (x0 x1 x2 x3 : FVec F s .f32) (a0 a1 a2 a3 : FVec F s' .f32) (j : s.Idx) (i : s'.Idx)
    (h0 : x0 j = a0 i) (h1 : x1 j = a1 i) (h2 : x2 j = a2 i) (h3 : x3 j = a3 i) :
    bottomLeft s x0 x1 x2 x3 j = bottomLeft s' a0 a1 a2 a3 i := by
  simp only [bottomLeft, mulf, addf, subf, broadcast, h0, h1, h2, h3]
theorem bottomRight_at {s s' : Shape} (x0 x1 x2 x3 : FVec F s .f32) (a0 a1 a2 a3 : FVec F s' .f32) (j : s.Idx) (i : s'.Idx)
    (h0 : x0 j = a0 i) (h1 : x1 j = a1 i) (h2 : x2 j = a2 i) (h3 : x3 j = a3 i) :
    bottomRight s x0 x1 x2 x3 j = bottomRight s' a0 a1 a2 a3 i := by
  simp only [bottomRight, mulf, subf, broadcast, h0, h1, h2, h3]

/-! ## What a point writes back -/

/-- Point t writes back, through output window 4, block t of the top-left corner of the whole inputs. -/
theorem flushed4_eq (c : Dev nD) (t : Fin cfg0.N) :
    (dats m 0 c).flushed 4 t = ((cfg0.win 4).blk t).view.read (Elt F)
      (topLeft S16x64x128x128 (V m c main_arg0) (V m c main_arg1) (V m c main_arg2) (V m c main_arg3)) := by
  show (cfg0.win 4).cut (grid0.coords t) ((dats m 0 c).after 4 t) = _
  rw [after0_4]
  unfold out0_4
  rw [View.canon_unit_zero zero_offsets]
  simp only [View.ld_unit_zero (S := S1x16x128x128) zero_offsets]
  rw [pay5_eq]
  funext j
  rw [View.read_apply, emb4]
  exact topLeft_at _ _ _ _ _ _ _ _ j (entryOf t j) (iblk0_apply m c t j) (iblk1_apply m c t j) (iblk2_apply m c t j) (iblk3_apply m c t j)

/-- Point t writes back, through output window 5, block t of the top-right corner of the whole inputs. -/
theorem flushed5_eq (c : Dev nD) (t : Fin cfg0.N) :
    (dats m 0 c).flushed 5 t = ((cfg0.win 5).blk t).view.read (Elt F)
      (topRight S16x64x128x128 (V m c main_arg0) (V m c main_arg1) (V m c main_arg2) (V m c main_arg3)) := by
  show (cfg0.win 5).cut (grid0.coords t) ((dats m 0 c).after 5 t) = _
  rw [after0_5]
  unfold out0_5
  rw [View.canon_unit_zero zero_offsets]
  simp only [View.ld_unit_zero (S := S1x16x128x128) zero_offsets]
  rw [pay6_eq]
  funext j
  rw [View.read_apply, emb5]
  exact topRight_at _ _ _ _ _ _ _ _ j (entryOf t j) (iblk0_apply m c t j) (iblk1_apply m c t j) (iblk2_apply m c t j) (iblk3_apply m c t j)

/-- Point t writes back, through output window 6, block t of the bottom-left corner of the whole inputs. -/
theorem flushed6_eq (c : Dev nD) (t : Fin cfg0.N) :
    (dats m 0 c).flushed 6 t = ((cfg0.win 6).blk t).view.read (Elt F)
      (bottomLeft S16x64x128x128 (V m c main_arg0) (V m c main_arg1) (V m c main_arg2) (V m c main_arg3)) := by
  show (cfg0.win 6).cut (grid0.coords t) ((dats m 0 c).after 6 t) = _
  rw [after0_6]
  unfold out0_6
  rw [View.canon_unit_zero zero_offsets]
  simp only [View.ld_unit_zero (S := S1x16x128x128) zero_offsets]
  rw [pay7_eq]
  funext j
  rw [View.read_apply, emb6]
  exact bottomLeft_at _ _ _ _ _ _ _ _ j (entryOf t j) (iblk0_apply m c t j) (iblk1_apply m c t j) (iblk2_apply m c t j) (iblk3_apply m c t j)

/-- Point t writes back, through output window 7, block t of the bottom-right corner of the whole inputs. -/
theorem flushed7_eq (c : Dev nD) (t : Fin cfg0.N) :
    (dats m 0 c).flushed 7 t = ((cfg0.win 7).blk t).view.read (Elt F)
      (bottomRight S16x64x128x128 (V m c main_arg0) (V m c main_arg1) (V m c main_arg2) (V m c main_arg3)) := by
  show (cfg0.win 7).cut (grid0.coords t) ((dats m 0 c).after 7 t) = _
  rw [after0_7]
  unfold out0_7
  rw [View.canon_unit_zero zero_offsets]
  simp only [View.ld_unit_zero (S := S1x16x128x128) zero_offsets]
  rw [pay8_eq]
  funext j
  rw [View.read_apply, emb7]
  exact bottomRight_at _ _ _ _ _ _ _ _ j (entryOf t j) (iblk0_apply m c t j) (iblk1_apply m c t j) (iblk2_apply m c t j) (iblk3_apply m c t j)

/-! ## The blocks tile the arrays -/

/-- The point whose blocks hold entry i: (i₀, i₁ / 16) in the 16 × 4 grid. -/
def pointOf (i : S16x64x128x128.Idx) : Fin cfg0.N :=
  ⟨(i 0).val * 4 + (i 1).val / 16, by
    rw [show cfg0.N = 64 from N_0]
    have h0 : (i 0).val < 16 := (i 0).isLt
    have h1 : (i 1).val < 64 := (i 1).isLt
    omega⟩

theorem mem_blk4 (t : Fin cfg0.N) (i : S16x64x128x128.Idx) :
    i ∈ ((cfg0.win 4).blk t).view.set ↔ ∀ a : Fin 4, win0_4.index t a * S1x16x128x128.size a ≤ (i a).val ∧ (i a).val < win0_4.index t a * S1x16x128x128.size a + S1x16x128x128.size a := by
  show i ∈ ((View.whole main_v0_0).slice (win0_4.rect t)).set ↔ _
  rw [View.set_slice_whole, Rect.mem_set_unit]
  exact Iff.rfl

theorem cover4 (i : S16x64x128x128.Idx) : ∃ t : Fin cfg0.N, (cfg0.win 4).flush t = true ∧ i ∈ ((cfg0.win 4).blk t).view.set := by
  have h0 : (i 0).val < 16 := (i 0).isLt
  have h1 : (i 1).val < 64 := (i 1).isLt
  have h2 : (i 2).val < 128 := (i 2).isLt
  have h3 : (i 3).val < 128 := (i 3).isLt
  refine ⟨pointOf i, flush0_4 _, ?_⟩
  rw [mem_blk4]
  obtain ⟨-, -, -, -, ⟨e0, e1, e2, e3⟩, -⟩ := index_at (pointOf i)
  have hv : (pointOf i).val = (i 0).val * 4 + (i 1).val / 16 := rfl
  intro a
  match a with
  | ⟨0, _⟩ => show win0_4.index (pointOf i) (0 : Fin 4) * 1 ≤ (i 0).val ∧ (i 0).val < win0_4.index (pointOf i) (0 : Fin 4) * 1 + 1; omega
  | ⟨1, _⟩ => show win0_4.index (pointOf i) (1 : Fin 4) * 16 ≤ (i 1).val ∧ (i 1).val < win0_4.index (pointOf i) (1 : Fin 4) * 16 + 16; omega
  | ⟨2, _⟩ => show win0_4.index (pointOf i) (2 : Fin 4) * 128 ≤ (i 2).val ∧ (i 2).val < win0_4.index (pointOf i) (2 : Fin 4) * 128 + 128; omega
  | ⟨3, _⟩ => show win0_4.index (pointOf i) (3 : Fin 4) * 128 ≤ (i 3).val ∧ (i 3).val < win0_4.index (pointOf i) (3 : Fin 4) * 128 + 128; omega

/-- After the run output array 4 is the top-left corner of the input arrays as the region found them. -/
theorem final4 (c : Dev nD) : (dats m 0 c).arrAt 4 cfg0.N
    = topLeft S16x64x128x128 (V m c main_arg0) (V m c main_arg1) (V m c main_arg2) (V m c main_arg3) :=
  (dats m 0 c).arrAt_eq_of_cover 4 _ (fun t _ => flushed4_eq m c t) cover4

theorem mem_blk5 (t : Fin cfg0.N) (i : S16x64x128x128.Idx) :
    i ∈ ((cfg0.win 5).blk t).view.set ↔ ∀ a : Fin 4, win0_5.index t a * S1x16x128x128.size a ≤ (i a).val ∧ (i a).val < win0_5.index t a * S1x16x128x128.size a + S1x16x128x128.size a := by
  show i ∈ ((View.whole main_v0_1).slice (win0_5.rect t)).set ↔ _
  rw [View.set_slice_whole, Rect.mem_set_unit]
  exact Iff.rfl

theorem cover5 (i : S16x64x128x128.Idx) : ∃ t : Fin cfg0.N, (cfg0.win 5).flush t = true ∧ i ∈ ((cfg0.win 5).blk t).view.set := by
  have h0 : (i 0).val < 16 := (i 0).isLt
  have h1 : (i 1).val < 64 := (i 1).isLt
  have h2 : (i 2).val < 128 := (i 2).isLt
  have h3 : (i 3).val < 128 := (i 3).isLt
  refine ⟨pointOf i, flush0_5 _, ?_⟩
  rw [mem_blk5]
  obtain ⟨-, -, -, -, -, ⟨e0, e1, e2, e3⟩, -⟩ := index_at (pointOf i)
  have hv : (pointOf i).val = (i 0).val * 4 + (i 1).val / 16 := rfl
  intro a
  match a with
  | ⟨0, _⟩ => show win0_5.index (pointOf i) (0 : Fin 4) * 1 ≤ (i 0).val ∧ (i 0).val < win0_5.index (pointOf i) (0 : Fin 4) * 1 + 1; omega
  | ⟨1, _⟩ => show win0_5.index (pointOf i) (1 : Fin 4) * 16 ≤ (i 1).val ∧ (i 1).val < win0_5.index (pointOf i) (1 : Fin 4) * 16 + 16; omega
  | ⟨2, _⟩ => show win0_5.index (pointOf i) (2 : Fin 4) * 128 ≤ (i 2).val ∧ (i 2).val < win0_5.index (pointOf i) (2 : Fin 4) * 128 + 128; omega
  | ⟨3, _⟩ => show win0_5.index (pointOf i) (3 : Fin 4) * 128 ≤ (i 3).val ∧ (i 3).val < win0_5.index (pointOf i) (3 : Fin 4) * 128 + 128; omega

/-- After the run output array 5 is the top-right corner of the input arrays as the region found them. -/
theorem final5 (c : Dev nD) : (dats m 0 c).arrAt 5 cfg0.N
    = topRight S16x64x128x128 (V m c main_arg0) (V m c main_arg1) (V m c main_arg2) (V m c main_arg3) :=
  (dats m 0 c).arrAt_eq_of_cover 5 _ (fun t _ => flushed5_eq m c t) cover5

theorem mem_blk6 (t : Fin cfg0.N) (i : S16x64x128x128.Idx) :
    i ∈ ((cfg0.win 6).blk t).view.set ↔ ∀ a : Fin 4, win0_6.index t a * S1x16x128x128.size a ≤ (i a).val ∧ (i a).val < win0_6.index t a * S1x16x128x128.size a + S1x16x128x128.size a := by
  show i ∈ ((View.whole main_v0_2).slice (win0_6.rect t)).set ↔ _
  rw [View.set_slice_whole, Rect.mem_set_unit]
  exact Iff.rfl

theorem cover6 (i : S16x64x128x128.Idx) : ∃ t : Fin cfg0.N, (cfg0.win 6).flush t = true ∧ i ∈ ((cfg0.win 6).blk t).view.set := by
  have h0 : (i 0).val < 16 := (i 0).isLt
  have h1 : (i 1).val < 64 := (i 1).isLt
  have h2 : (i 2).val < 128 := (i 2).isLt
  have h3 : (i 3).val < 128 := (i 3).isLt
  refine ⟨pointOf i, flush0_6 _, ?_⟩
  rw [mem_blk6]
  obtain ⟨-, -, -, -, -, -, ⟨e0, e1, e2, e3⟩, -⟩ := index_at (pointOf i)
  have hv : (pointOf i).val = (i 0).val * 4 + (i 1).val / 16 := rfl
  intro a
  match a with
  | ⟨0, _⟩ => show win0_6.index (pointOf i) (0 : Fin 4) * 1 ≤ (i 0).val ∧ (i 0).val < win0_6.index (pointOf i) (0 : Fin 4) * 1 + 1; omega
  | ⟨1, _⟩ => show win0_6.index (pointOf i) (1 : Fin 4) * 16 ≤ (i 1).val ∧ (i 1).val < win0_6.index (pointOf i) (1 : Fin 4) * 16 + 16; omega
  | ⟨2, _⟩ => show win0_6.index (pointOf i) (2 : Fin 4) * 128 ≤ (i 2).val ∧ (i 2).val < win0_6.index (pointOf i) (2 : Fin 4) * 128 + 128; omega
  | ⟨3, _⟩ => show win0_6.index (pointOf i) (3 : Fin 4) * 128 ≤ (i 3).val ∧ (i 3).val < win0_6.index (pointOf i) (3 : Fin 4) * 128 + 128; omega

/-- After the run output array 6 is the bottom-left corner of the input arrays as the region found them. -/
theorem final6 (c : Dev nD) : (dats m 0 c).arrAt 6 cfg0.N
    = bottomLeft S16x64x128x128 (V m c main_arg0) (V m c main_arg1) (V m c main_arg2) (V m c main_arg3) :=
  (dats m 0 c).arrAt_eq_of_cover 6 _ (fun t _ => flushed6_eq m c t) cover6

theorem mem_blk7 (t : Fin cfg0.N) (i : S16x64x128x128.Idx) :
    i ∈ ((cfg0.win 7).blk t).view.set ↔ ∀ a : Fin 4, win0_7.index t a * S1x16x128x128.size a ≤ (i a).val ∧ (i a).val < win0_7.index t a * S1x16x128x128.size a + S1x16x128x128.size a := by
  show i ∈ ((View.whole main_v0_3).slice (win0_7.rect t)).set ↔ _
  rw [View.set_slice_whole, Rect.mem_set_unit]
  exact Iff.rfl

theorem cover7 (i : S16x64x128x128.Idx) : ∃ t : Fin cfg0.N, (cfg0.win 7).flush t = true ∧ i ∈ ((cfg0.win 7).blk t).view.set := by
  have h0 : (i 0).val < 16 := (i 0).isLt
  have h1 : (i 1).val < 64 := (i 1).isLt
  have h2 : (i 2).val < 128 := (i 2).isLt
  have h3 : (i 3).val < 128 := (i 3).isLt
  refine ⟨pointOf i, flush0_7 _, ?_⟩
  rw [mem_blk7]
  obtain ⟨-, -, -, -, -, -, -, e0, e1, e2, e3⟩ := index_at (pointOf i)
  have hv : (pointOf i).val = (i 0).val * 4 + (i 1).val / 16 := rfl
  intro a
  match a with
  | ⟨0, _⟩ => show win0_7.index (pointOf i) (0 : Fin 4) * 1 ≤ (i 0).val ∧ (i 0).val < win0_7.index (pointOf i) (0 : Fin 4) * 1 + 1; omega
  | ⟨1, _⟩ => show win0_7.index (pointOf i) (1 : Fin 4) * 16 ≤ (i 1).val ∧ (i 1).val < win0_7.index (pointOf i) (1 : Fin 4) * 16 + 16; omega
  | ⟨2, _⟩ => show win0_7.index (pointOf i) (2 : Fin 4) * 128 ≤ (i 2).val ∧ (i 2).val < win0_7.index (pointOf i) (2 : Fin 4) * 128 + 128; omega
  | ⟨3, _⟩ => show win0_7.index (pointOf i) (3 : Fin 4) * 128 ≤ (i 3).val ∧ (i 3).val < win0_7.index (pointOf i) (3 : Fin 4) * 128 + 128; omega

/-- After the run output array 7 is the bottom-right corner of the input arrays as the region found them. -/
theorem final7 (c : Dev nD) : (dats m 0 c).arrAt 7 cfg0.N
    = bottomRight S16x64x128x128 (V m c main_arg0) (V m c main_arg1) (V m c main_arg2) (V m c main_arg3) :=
  (dats m 0 c).arrAt_eq_of_cover 7 _ (fun t _ => flushed7_eq m c t) cover7

end Cert.KernelIdeal.Haar

end
-- ==== Proof.HaarTail.lean ====
/-
  The lines after the kernel interleave the four corner arrays into the doubled image: entry (b, c, 2h + p, 2w + q)
  of the [16,64,256,256] result is entry (b, c, h, w) of the corner (p, q) — p = 0 top, 1 bottom; q = 0 left, 1 right.
  The program does it by giving each corner a trailing unit axis, joining left with right along it, giving the two
  joined arrays a unit axis before it, joining top with bottom along that, swapping the two middle axes so that the
  row parity follows the row and the column parity the column, and merging each pair. This file names that
  composition once (`interleave`), reads the kernel program's result as `interleave` of the four output arrays after
  the region, and so — by the tiling shown before — as `interleave` of the four corners of the input arrays.
-/
import proofs.«105108_j83356725281342_1_alg».proof.Proof.HaarBlocks
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Haar

open Cert.KernelIdeal Cert.KernelIdeal.Gen

variable {F : FTy → Type} [FloatOps F]

/-- The four corners laid out as 2 × 2 cells of the doubled image. -/
def interleave (tl tr bl br : FVec F S16x64x128x128 .f32) : FVec F S16x64x256x256 .f32 :=
  shapeCast S16x64x256x256
    (transpose S16x64x128x2x128x2 [0, 1, 2, 4, 3, 5]
      (concatenate S16x64x128x128x2x2 4
        [⟨S16x64x128x128x1x2, broadcastInDim S16x64x128x128x1x2 ![0, 1, 2, 3, 5] bcast_S16x64x128x128x2_S16x64x128x128x1x2_0_1_2_3_5
            (concatenate S16x64x128x128x2 4
              [⟨S16x64x128x128x1, broadcastInDim S16x64x128x128x1 ![0, 1, 2, 3] bcast_S16x64x128x128_S16x64x128x128x1_0_1_2_3 tl⟩,
               ⟨S16x64x128x128x1, broadcastInDim S16x64x128x128x1 ![0, 1, 2, 3] bcast_S16x64x128x128_S16x64x128x128x1_0_1_2_3 tr⟩]
              concatenates_S16x64x128x128x1_S16x64x128x128x1_S16x64x128x128x2_d4)⟩,
         ⟨S16x64x128x128x1x2, broadcastInDim S16x64x128x128x1x2 ![0, 1, 2, 3, 5] bcast_S16x64x128x128x2_S16x64x128x128x1x2_0_1_2_3_5
            (concatenate S16x64x128x128x2 4
              [⟨S16x64x128x128x1, broadcastInDim S16x64x128x128x1 ![0, 1, 2, 3] bcast_S16x64x128x128_S16x64x128x128x1_0_1_2_3 bl⟩,
               ⟨S16x64x128x128x1, broadcastInDim S16x64x128x128x1 ![0, 1, 2, 3] bcast_S16x64x128x128_S16x64x128x128x1_0_1_2_3 br⟩]
              concatenates_S16x64x128x128x1_S16x64x128x128x1_S16x64x128x128x2_d4)⟩]
        concatenates_S16x64x128x128x1x2_S16x64x128x128x1x2_S16x64x128x128x2x2_d4)
      transposes_S16x64x128x128x2x2_S16x64x128x2x128x2_0_1_2_4_3_5)
    shapeCasts_S16x64x128x2x128x2_S16x64x256x256

variable (m : (ℓ : Loc nD τ sig) → Buf (Elt F) ℓ) (ρ : Dev nD → PrngReg)

/-- The result buffer after the lines that follow the region: the four output arrays, as the region leaves them, interleaved. -/
theorem tail_eq (c : Dev nD) :
    Pipeline.afterTail₀ cfgs (dats m) 0 (V0 m) [hostOps1] c main_v11
      = interleave ((dats m 0 c).arrAt 4 cfg0.N) ((dats m 0 c).arrAt 5 cfg0.N) ((dats m 0 c).arrAt 6 cfg0.N) ((dats m 0 c).arrAt 7 cfg0.N) := by
  unfold Pipeline.afterTail₀
  show StableHlo.after hostOps1 _ (Proc.devRef .tc main_v11) = _
  after_results
  have e4 : Pipeline.withArrays (cfgs 0).spec c (V0 m c) (fun w => (dats m 0 c).arrAt w (cfgs 0).N) (Proc.devRef .tc main_v0_0)
      = (dats m 0 c).arrAt 4 cfg0.N := Pipeline.withArrays_arr spec0 launch0.win.arr_inj c _ _ 4
  have e5 : Pipeline.withArrays (cfgs 0).spec c (V0 m c) (fun w => (dats m 0 c).arrAt w (cfgs 0).N) (Proc.devRef .tc main_v0_1)
      = (dats m 0 c).arrAt 5 cfg0.N := Pipeline.withArrays_arr spec0 launch0.win.arr_inj c _ _ 5
  have e6 : Pipeline.withArrays (cfgs 0).spec c (V0 m c) (fun w => (dats m 0 c).arrAt w (cfgs 0).N) (Proc.devRef .tc main_v0_2)
      = (dats m 0 c).arrAt 6 cfg0.N := Pipeline.withArrays_arr spec0 launch0.win.arr_inj c _ _ 6
  have e7 : Pipeline.withArrays (cfgs 0).spec c (V0 m c) (fun w => (dats m 0 c).arrAt w (cfgs 0).N) (Proc.devRef .tc main_v0_3)
      = (dats m 0 c).arrAt 7 cfg0.N := Pipeline.withArrays_arr spec0 launch0.win.arr_inj c _ _ 7
  rw [e4, e5, e6, e7]
  rfl

/-- The kernel program's run, read: the result is the interleaving of the four corners of the argument arrays, and the
    arguments are unchanged. -/
theorem run : θ_run defs (onTc (τ := τ) (main (F := F))) ⟨m, fun _ => 0, ρ⟩ fun r => ∀ c : Dev nD,
      r.2.mem ((c.tc : Thread nD τ).loc main_v11)
        = interleave
            (topLeft S16x64x128x128 (m ((c.tc : Thread nD τ).loc main_arg0)) (m ((c.tc : Thread nD τ).loc main_arg1)) (m ((c.tc : Thread nD τ).loc main_arg2)) (m ((c.tc : Thread nD τ).loc main_arg3)))
            (topRight S16x64x128x128 (m ((c.tc : Thread nD τ).loc main_arg0)) (m ((c.tc : Thread nD τ).loc main_arg1)) (m ((c.tc : Thread nD τ).loc main_arg2)) (m ((c.tc : Thread nD τ).loc main_arg3)))
            (bottomLeft S16x64x128x128 (m ((c.tc : Thread nD τ).loc main_arg0)) (m ((c.tc : Thread nD τ).loc main_arg1)) (m ((c.tc : Thread nD τ).loc main_arg2)) (m ((c.tc : Thread nD τ).loc main_arg3)))
            (bottomRight S16x64x128x128 (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
      ⟨((h c).2 main_v11 (Pipeline.mem_restRefs_of main_v11 rfl (by decide))).trans
          ((tail_eq m c).trans (by rw [final4, final5, final6, final7]; rfl)),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c))),
       ((h c).1 3).trans (((dats m 0 c).arrAt_in 3 rfl _).trans ((A_eq m c 3).trans (V_main_arg3 m c)))⟩)
    (run_main m ρ)

end Cert.KernelIdeal.Haar

end
-- ==== Proof.HaarReference.lean ====
/-
  The reference computes the four corners of the inverse Haar step on the whole arrays — the quarter as a scalar
  constant spread over the array — and interleaves them by the same lines as the kernel program. Its result term is
  therefore `interleave` of the four corners of its arguments: the spread scalar is the constant array at every
  entry, and the rest is the same composition of the same operations.
-/
import proofs.«105108_j83356725281342_1_alg».proof.Proof.HaarTail
import proofs.«105108_j83356725281342_1_alg».proof.Proof.Gen.ReferenceIdeal.Run

set_option maxRecDepth 16384

noncomputable section

open Idealize.ShloMosaic Idealize.ShloMosaic.TcCoe Idealize.SL.Sem

namespace Cert.ReferenceIdeal.Haar

open Cert.ReferenceIdeal Cert.ReferenceIdeal.Gen

variable {F : FTy → Type} [FloatOps F]

/-- A scalar constant spread over the array is the array holding that constant at every entry. -/
theorem quarter_spread :
    broadcastInDim S16x64x128x128 ![] bcast_S_S16x64x128x128 (constant (F := F) S_ .f32 0x3E800000#32)
      = broadcast S16x64x128x128 (Scalar.ofBits .f32 0x3E800000#32) := by
  funext i
  rfl

/-- The reference's result term is the interleaving of the four corners of its arguments. -/
theorem result_eq (a0 a1 a2 a3 : FVec F S16x64x128x128 .f32) :
    shapeCast _ (transpose S16x64x128x2x128x2 [0, 1, 2, 4, 3, 5] (concatenate S16x64x128x128x2x2 4 [⟨S16x64x128x128x1x2, (broadcastInDim S16x64x128x128x1x2 ![0, 1, 2, 3, 5] bcast_S16x64x128x128x2_S16x64x128x128x1x2_0_1_2_3_5 (concatenate S16x64x128x128x2 4 [⟨S16x64x128x128x1, (broadcastInDim S16x64x128x128x1 ![0, 1, 2, 3] bcast_S16x64x128x128_S16x64x128x128x1_0_1_2_3 (mulf (broadcastInDim S16x64x128x128 ![] bcast_S_S16x64x128x128 (constant S_ .f32 0x3E800000#32)) (addf (addf a0 a1) (addf a2 a3))))⟩, ⟨S16x64x128x128x1, (broadcastInDim S16x64x128x128x1 ![0, 1, 2, 3] bcast_S16x64x128x128_S16x64x128x128x1_0_1_2_3 (mulf (broadcastInDim S16x64x128x128 ![] bcast_S_S16x64x128x128 (constant S_ .f32 0x3E800000#32)) (subf (addf a0 a1) (addf a2 a3))))⟩] concatenates_S16x64x128x128x1_S16x64x128x128x1_S16x64x128x128x2_d4))⟩, ⟨S16x64x128x128x1x2, (broadcastInDim S16x64x128x128x1x2 ![0, 1, 2, 3, 5] bcast_S16x64x128x128x2_S16x64x128x128x1x2_0_1_2_3_5 (concatenate S16x64x128x128x2 4 [⟨S16x64x128x128x1, (broadcastInDim S16x64x128x128x1 ![0, 1, 2, 3] bcast_S16x64x128x128_S16x64x128x128x1_0_1_2_3 (mulf (broadcastInDim S16x64x128x128 ![] bcast_S_S16x64x128x128 (constant S_ .f32 0x3E800000#32)) (addf (subf a0 a1) (subf a2 a3))))⟩, ⟨S16x64x128x128x1, (broadcastInDim S16x64x128x128x1 ![0, 1, 2, 3] bcast_S16x64x128x128_S16x64x128x128x1_0_1_2_3 (mulf (broadcastInDim S16x64x128x128 ![] bcast_S_S16x64x128x128 (constant S_ .f32 0x3E800000#32)) (subf (subf a0 a1) (subf a2 a3))))⟩] concatenates_S16x64x128x128x1_S16x64x128x128x1_S16x64x128x128x2_d4))⟩] concatenates_S16x64x128x128x1x2_S16x64x128x128x1x2_S16x64x128x128x2x2_d4) transposes_S16x64x128x128x2x2_S16x64x128x2x128x2_0_1_2_4_3_5) shapeCasts_S16x64x128x2x128x2_S16x64x256x256
      = Cert.KernelIdeal.Haar.interleave
          (Cert.KernelIdeal.Haar.topLeft S16x64x128x128 a0 a1 a2 a3) (Cert.KernelIdeal.Haar.topRight S16x64x128x128 a0 a1 a2 a3)
          (Cert.KernelIdeal.Haar.bottomLeft S16x64x128x128 a0 a1 a2 a3) (Cert.KernelIdeal.Haar.bottomRight S16x64x128x128 a0 a1 a2 a3) := by
  rw [quarter_spread]
  rfl

end Cert.ReferenceIdeal.Haar

end
-- ==== Proof.lean ====
/-
  The inverse Haar wavelet step, kernel against reference, over the extended reals.

  Both programs form, entry by entry, the four corners
    1/4 · ((LL + LH) ± (HL + HH))   and   1/4 · ((LL − LH) ± (HL − HH))
  of the coefficient arrays and interleave them as the 2 × 2 cells of the doubled image; the kernel forms the corners
  one [1,16,128,128] block per grid point, the reference on the whole arrays. The sixty-four blocks tile the arrays
  and each block of a corner depends only on the same block of the inputs, so the kernel's four output arrays are
  the corners of the whole inputs (Proof/HaarBlocks.lean); the lines that follow the region are the reference's
  interleaving, operation for operation (Proof/HaarTail.lean, Proof/HaarReference.lean). The two results are then the
  same term of the arguments: no law of arithmetic is used — not even commutativity — and the precondition is
  never opened. The word-level kernel needs its frame only; the idealization rewrote nothing.
-/
import proofs.«105108_j83356725281342_1_alg».proof.Defs
import proofs.«105108_j83356725281342_1_alg».proof.Proof.Gen.Kernel
import proofs.«105108_j83356725281342_1_alg».proof.Proof.Gen.Kernel.Frame
import proofs.«105108_j83356725281342_1_alg».proof.Proof.Gen.KernelIdeal
import proofs.«105108_j83356725281342_1_alg».proof.Proof.Gen.KernelIdeal.Frame
import proofs.«105108_j83356725281342_1_alg».proof.Proof.Gen.ReferenceIdeal
import proofs.«105108_j83356725281342_1_alg».proof.Proof.Gen.ReferenceIdeal.Run
import proofs.«105108_j83356725281342_1_alg».proof.Proof.Gen.Pre_finite_inputs
import proofs.«105108_j83356725281342_1_alg».proof.Proof.HaarTail
import proofs.«105108_j83356725281342_1_alg».proof.Proof.HaarReference

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the interleaving of the four corners of arguments that agree. -/
theorem algebraic : Cert.algebraic_KernelIdeal_ReferenceIdeal := by
  intro m ρ m' ρ' _ hagree
  refine ⟨_, Cert.KernelIdeal.Haar.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact Cert.ReferenceIdeal.Haar.result_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
